-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S64x1x1x1024 : Shape := ⟨4, ![64, 1, 1, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel
  bcast_S_S64x1x1x1024 : S_.BroadcastsInDim S64x1x1x1024 (![] : Fin 0 → Fin S64x1x1x1024.rank)
  reducesTo_S64x1x1x1024_S_d0_1_2_3 : S64x1x1x1024.ReducesTo [0, 1, 2, 3] S_

variable [Facts]

def fn_part1 {F : FTy → Type} [FloatOps F] (main_v13 : IVec S_ 1) (main_v16 : IVec S64x1x1x1024 1) : IVec S_ 1 :=
  let main_c_5 : IVec S_ 1 := constantI S_ 1 1#1
  let main_v17 : IVec S_ 1 := (fun x v => Host.reduce IntOp.andi x v reducesTo_S64x1x1x1024_S_d0_1_2_3 h_S_) main_v16 main_c_5
  let main_v18 : IVec S_ 1 := andi main_v13 main_v17
  main_v18

def fn {F : FTy → Type} [FloatOps F] (main_arg0 : FVec F S64x1x1024x1024 .f32) (main_arg1 : FVec F S64x1x1x1024 .f32) (main_arg2 : FVec F S64x1x1x1024 .f32) (main_arg3 : FVec F S64x1x1x1024 .f32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  let main_v4 : FVec F S64x1x1x1024 .f32 := Host.absf main_arg1
  let main_cst_0 : FVec F S_ .f32 := constant S_ .f32 0x7F800000#32
  let main_v5 : FVec F S64x1x1x1024 .f32 := broadcastInDim S64x1x1x1024 ![] bcast_S_S64x1x1x1024 main_cst_0
  let main_v6 : IVec S64x1x1x1024 1 := cmpf .olt main_v4 main_v5
  let main_c_1 : IVec S_ 1 := constantI S_ 1 1#1
  let main_v7 : IVec S_ 1 := (fun x v => Host.reduce IntOp.andi x v reducesTo_S64x1x1x1024_S_d0_1_2_3 h_S_) main_v6 main_c_1
  let main_v8 : IVec S_ 1 := andi main_v3 main_v7
  let main_v9 : FVec F S64x1x1x1024 .f32 := Host.absf main_arg2
  let main_cst_2 : FVec F S_ .f32 := constant S_ .f32 0x7F800000#32
  let main_v10 : FVec F S64x1x1x1024 .f32 := broadcastInDim S64x1x1x1024 ![] bcast_S_S64x1x1x1024 main_cst_2
  let main_v11 : IVec S64x1x1x1024 1 := cmpf .olt main_v9 main_v10
  let main_c_3 : IVec S_ 1 := constantI S_ 1 1#1
  let main_v12 : IVec S_ 1 := (fun x v => Host.reduce IntOp.andi x v reducesTo_S64x1x1x1024_S_d0_1_2_3 h_S_) main_v11 main_c_3
  let main_v13 : IVec S_ 1 := andi main_v8 main_v12
  let main_v14 : FVec F S64x1x1x1024 .f32 := Host.absf main_arg3
  let main_cst_4 : FVec F S_ .f32 := constant S_ .f32 0x7F800000#32
  let main_v15 : FVec F S64x1x1x1024 .f32 := broadcastInDim S64x1x1x1024 ![] bcast_S_S64x1x1x1024 main_cst_4
  let main_v16 : IVec S64x1x1x1024 1 := cmpf .olt main_v14 main_v15
  fn_part1 (F := F) main_v13 main_v16
-- ==== Kernel.lean ====
abbrev S64x1x1024x1024 : Shape := ⟨4, ![64, 1, 1024, 1024]⟩
abbrev S64x1x1x1024 : Shape := ⟨4, ![64, 1, 1, 1024]⟩
abbrev S64x1024x1024 : Shape := ⟨3, ![64, 1024, 1024]⟩
abbrev S64x1x1024 : Shape := ⟨3, ![64, 1, 1024]⟩
abbrev S8x128x1024 : Shape := ⟨3, ![8, 128, 1024]⟩
abbrev S8x1x1024 : Shape := ⟨3, ![8, 1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1x1024, .f32⟩
  | .hbm, ⟨2, _⟩ => ⟨S64x1x1x1024, .f32⟩
  | .hbm, ⟨3, _⟩ => ⟨S64x1x1x1024, .f32⟩
  | .hbm, ⟨4, _⟩ => ⟨S64x1024x1024, .f32⟩
  | .hbm, ⟨5, _⟩ => ⟨S64x1x1024, .f32⟩
  | .hbm, ⟨6, _⟩ => ⟨S64x1x1024, .f32⟩
  | .hbm, ⟨7, _⟩ => ⟨S64x1x1024, .f32⟩
  | .hbm, ⟨8, _⟩ => ⟨S64x1024x1024, .f32⟩
  | .hbm, ⟨9, _⟩ => ⟨S64x1x1024x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x128x1024, .f32⟩
  | .local _ .vmem, ⟨9, _⟩ => ⟨S8x128x1024, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x1x1024x1024_S64x1024x1024 : S64x1x1024x1024.ShapeCasts S64x1024x1024
  shapeCasts_S64x1x1x1024_S64x1x1024 : S64x1x1x1024.ShapeCasts S64x1x1024
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1x1024 : S8x1x1024.ShapeCasts S8x1x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  broadcasts_S8x1x1024_S8x128x1024 : S8x1x1024.Broadcasts S8x128x1024
  bcast_S64x1024x1024_S64x1x1024x1024_0_2_3 : S64x1024x1024.BroadcastsInDim S64x1x1024x1024 (![0, 2, 3] : Fin 3 → Fin S64x1x1024x1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x1024x1024.size a
  hwx0_0 : ∀ i : grid0.Coords, EltTy.bits .f32 = 32 ∨ (Rect.block (s := S64x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1024.size a ≤ S64x1x1024.size a
  hwx0_1 : ∀ i : grid0.Coords, EltTy.bits .f32 = 32 ∨ (Rect.block (s := S64x1x1024) S8x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1024.size a ≤ S64x1x1024.size a
  hwx0_2 : ∀ i : grid0.Coords, EltTy.bits .f32 = 32 ∨ (Rect.block (s := S64x1x1024) S8x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1024.size a ≤ S64x1x1024.size a
  hwx0_3 : ∀ i : grid0.Coords, EltTy.bits .f32 = 32 ∨ (Rect.block (s := S64x1x1024) S8x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S64x1024x1024.size a
  hwx0_4 : ∀ i : grid0.Coords, EltTy.bits .f32 = 32 ∨ (Rect.block (s := S64x1024x1024) S8x128x1024.size (cc0_transform_4 i) (hinb0_4 i)).WholeWords (EltTy.packing .f32)

variable [Facts₀]

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x1024x1024 : Shape := ⟨4, ![64, 1, 1024, 1024]⟩
abbrev S64x1x1x1024 : Shape := ⟨4, ![64, 1, 1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1x1024, .f32⟩
  | .hbm, ⟨2, _⟩ => ⟨S64x1x1x1024, .f32⟩
  | .hbm, ⟨3, _⟩ => ⟨S64x1x1x1024, .f32⟩
  | .hbm, ⟨4, _⟩ => ⟨S64x1x1x1024, .f32⟩
  | .hbm, ⟨5, _⟩ => ⟨S64x1x1x1024, .f32⟩
  | .hbm, ⟨6, _⟩ => ⟨S_, .f32⟩
  | .hbm, ⟨7, _⟩ => ⟨S64x1x1x1024, .f32⟩
  | .hbm, ⟨8, _⟩ => ⟨S64x1x1x1024, .f32⟩
  | .hbm, ⟨9, _⟩ => ⟨S64x1x1024x1024, .f32⟩
  | .hbm, ⟨10, _⟩ => ⟨S64x1x1024x1024, .f32⟩
  | .hbm, ⟨11, _⟩ => ⟨S64x1x1024x1024, .f32⟩
  | .hbm, ⟨12, _⟩ => ⟨S64x1x1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64x1x1024x1024, .f32⟩
  | .hbm, ⟨17, _⟩ => ⟨S64x1x1024x1024, .f32⟩
  | .hbm, ⟨18, _⟩ => ⟨S_, .f32⟩
  | .hbm, ⟨19, _⟩ => ⟨S64x1x1024x1024, .f32⟩
  | .hbm, ⟨20, _⟩ => ⟨S64x1x1024x1024, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  bcast_S_S64x1x1x1024 : S_.BroadcastsInDim S64x1x1x1024 (![] : Fin 0 → Fin S64x1x1x1024.rank)
  bcast_S64x1x1x1024_S64x1x1024x1024_0_1_2_3 : S64x1x1x1024.BroadcastsInDim S64x1x1024x1024 (![0, 1, 2, 3] : Fin 4 → Fin S64x1x1024x1024.rank)
  bcast_S_S64x1x1024x1024 : S_.BroadcastsInDim S64x1x1024x1024 (![] : Fin 0 → Fin S64x1x1024x1024.rank)

variable [Facts₀]

class Facts : Prop extends Facts₀ where

variable [Facts]
-- ==== Proof.Spec.lean ====
/-
  The function both programs compute.  The image `x` has shape [64, 1, 1024, 1024]; the three noise arrays
  `a1 a2 a3` have shape [64, 1, 1, 1024]: one value per batch element and image column, shared by all rows.
  The result at (b, 0, h, w) is
      min 1 (max 0 (a1[b,0,0,w] + ((a2[b,0,0,w] + a3[b,0,0,w] * a3[b,0,0,w]) + 1) * x[b,0,h,w])).
  Both programs apply exactly these operations in exactly this order, so the function is written over the float
  instance's own operations and nothing here depends on which instance that is.
-/
import Idealize.ShloMosaic.PureOps.Ideal
import Idealize.ShloMosaic.Lib.ValueIdx

noncomputable section

namespace Cert.NoiseClip

open Idealize.ShloMosaic Idealize.ShloMosaic.ValueIdx

variable {F : FTy → Type} [FloatOps F]

/-- The image's shape and the noise arrays' shape. -/
abbrev Img : Shape := ⟨4, ![64, 1, 1024, 1024]⟩
abbrev Col : Shape := ⟨4, ![64, 1, 1, 1024]⟩

/-- One entry of the result from the three noise values of its column and the image entry:
    `min 1 (max 0 (a1 + ((a2 + a3 * a3) + 1) * x))`. -/
def entry (a1 a2 a3 x : F .f32) : F .f32 :=
  FloatOps.minimumf (FloatOps.ofBits .f32 0x3F800000#32)
    (FloatOps.maximumf (FloatOps.ofBits .f32 0x00000000#32)
      (FloatOps.addf a1
        (FloatOps.mulf (FloatOps.addf (FloatOps.addf a2 (FloatOps.mulf a3 a3)) (FloatOps.ofBits .f32 0x3F800000#32)) x)))

/-- The noise index an image index reads: its batch element and its column, the two unit axes at 0. -/
abbrev colOf (i : Img.Idx) : Col.Idx := ix4 (i 0) 0 0 (i 3)

/-- The whole result array as a function of the four argument arrays, index by index. -/
def result (x : Img.Idx → F .f32) (a1 a2 a3 : Col.Idx → F .f32) : Img.Idx → F .f32 :=
  fun i => entry (a1 (colOf i)) (a2 (colOf i)) (a3 (colOf i)) (x i)

theorem result_apply (x : Img.Idx → F .f32) (a1 a2 a3 : Col.Idx → F .f32) (i : Img.Idx) :
    result x a1 a2 a3 i = entry (a1 (colOf i)) (a2 (colOf i)) (a3 (colOf i)) (x i) := rfl

/-! ## The same function with the image's unit axis dropped

The kernel works on the image reshaped to [64, 1024, 1024] and the noise arrays reshaped to [64, 1, 1024]; its result
is given the unit axis back at the end.  On those shapes the function reads, at (b, h, w), the noise at (b, 0, w). -/

abbrev Img3 : Shape := ⟨3, ![64, 1024, 1024]⟩
abbrev Col3 : Shape := ⟨3, ![64, 1, 1024]⟩

/-- The noise index an index of the reshaped image reads. -/
abbrev colOf3 (j : Img3.Idx) : Col3.Idx := ix3 (j 0) 0 (j 2)

def result3 (x : Img3.Idx → F .f32) (a1 a2 a3 : Col3.Idx → F .f32) : Img3.Idx → F .f32 :=
  fun j => entry (a1 (colOf3 j)) (a2 (colOf3 j)) (a3 (colOf3 j)) (x j)

theorem result3_apply (x : Img3.Idx → F .f32) (a1 a2 a3 : Col3.Idx → F .f32) (j : Img3.Idx) :
    result3 x a1 a2 a3 j = entry (a1 (colOf3 j)) (a2 (colOf3 j)) (a3 (colOf3 j)) (x j) := rfl

end Cert.NoiseClip

end
-- ==== Proof.Reference.lean ====
/-
  The reference's result is the specified function.  Read one operation at a time, the reference at an image index
  `i` is `min 1 (max 0 (a1 k + ((a2 k + a3 k * a3 k) + 1) * x i))` where `k` is what its two broadcasts of a noise
  array to the image's shape read: batch element and column of `i`, 0 on the unit axes.  That is `colOf i`, and the
  rest is the definition of `entry`.
-/
import proofs.«180503_j43868795961991_1_alg».proof.Proof.Gen.ReferenceIdeal.Read
import proofs.«180503_j43868795961991_1_alg».proof.Proof.Spec

noncomputable section

namespace Cert.ReferenceIdeal.RefValue

open Idealize.ShloMosaic Idealize.ShloMosaic.ValueIdx Cert.ReferenceIdeal Cert.ReferenceIdeal.Read Cert.NoiseClip

variable {F : FTy → Type} [FloatOps F]

/-- The broadcast of the noise coefficient to the image's shape reads the noise at the image index's column. -/
theorem coeff_idx (i : S64x1x1024x1024.Idx) : idx_main_v4 i = colOf i :=
  funext fun a => match a with
    | ⟨0, _⟩ => rfl
    | ⟨1, _⟩ => rfl
    | ⟨2, _⟩ => rfl
    | ⟨3, _⟩ => rfl

/-- So does the broadcast of the additive noise. -/
theorem offset_idx (i : S64x1x1024x1024.Idx) : idx_main_v6 i = colOf i :=
  funext fun a => match a with
    | ⟨0, _⟩ => rfl
    | ⟨1, _⟩ => rfl
    | ⟨2, _⟩ => rfl
    | ⟨3, _⟩ => rfl

/-- The reference's last stage, as a function of the four arguments, is `result`. -/
theorem stage_eq_result (x0 : (⟨S64x1x1024x1024, .f32⟩ : BufTy).Contents (Elt F)) (x1 x2 x3 : (⟨S64x1x1x1024, .f32⟩ : BufTy).Contents (Elt F)) :
    val_main_v8 (F := F) x0 x1 x2 x3 = result (F := F) x0 x1 x2 x3 := by
  funext i
  rw [val_main_v8_apply, val_main_call0_v4_apply, val_main_call0_v3_apply, val_main_cst_1_apply,
    val_main_call0_v2_apply, val_main_call0_v1_apply, val_main_call0_v0_apply, val_main_cst_0_apply,
    val_main_v7_apply, val_main_v6_apply, val_main_v5_apply, val_main_v4_apply, val_main_v3_apply,
    val_main_v2_apply, val_main_cst_apply, val_main_v1_apply, val_main_v0_apply, coeff_idx, offset_idx]
  rfl

end Cert.ReferenceIdeal.RefValue

end
-- ==== Proof.Body.lean ====
/-
  The kernel body's arithmetic at one entry of a block.  At a grid point the body holds a block `x` of the image,
  8 batch elements by 128 rows by 1024 columns, and the blocks `a1 a2 a3` of the three noise arrays, 8 batch
  elements by 1 by 1024 columns.  It forms `(a2 + a3 * a3) + 1` on the small shape, repeats it and `a1` along the 128
  rows, and stores `min 1 (max 0 (a1 + coefficient * x))`.  Repeating a [8, 1, 1024] block along the rows reads, at
  (p, h, w), its entry (p, 0, w); so the stored entry at (p, h, w) is `entry` of the three noise entries at (p, 0, w) and
  of `x` at (p, h, w).
-/
import proofs.«180503_j43868795961991_1_alg».proof.Proof.Gen.KernelIdeal.Skeleton
import proofs.«180503_j43868795961991_1_alg».proof.Proof.Spec
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.NoiseClip

variable {F : FTy → Type} [FloatOps F]

/-- A block of shape [8, 1, 1024] repeated along 128 rows reads, at (p, h, w), its entry (p, 0, w). -/
theorem rows_apply (a : S8x1x1024.Idx → F .f32) (hb : S8x1x1024.Broadcasts S8x128x1024) (p : Fin 8) (h : Fin 128) (w : Fin 1024) :
    broadcastTo S8x128x1024 a hb (ix3 p h w) = a (ix3 p 0 w) :=
  broadcastTo_apply a hb (ix3 p h w) (ix3 p 0 w) (fun d => match d with
    | ⟨0, _⟩ => by show p.val = if (8 : Nat) = 1 then 0 else p.val; rw [if_neg (by decide)]
    | ⟨1, _⟩ => by show 0 = if (1 : Nat) = 1 then 0 else h.val; rw [if_pos rfl]
    | ⟨2, _⟩ => by show w.val = if (1024 : Nat) = 1 then 0 else w.val; rw [if_neg (by decide)])

/-- What the body stores at (p, h, w), from the blocks it loaded (in the order it loads them: the third noise block, the
    second, the first, the image block). -/
theorem stored_apply (a3 a2 a1 : Vec F S8x1x1024 .f32) (x : Vec F S8x128x1024 .f32) (p : Fin 8) (h : Fin 128) (w : Fin 1024) :
    k0_pay1 a3 a2 a1 x (ix3 p h w) = entry (a1 (ix3 p 0 w)) (a2 (ix3 p 0 w)) (a3 (ix3 p 0 w)) (x (ix3 p h w)) := by
  unfold k0_pay1
  simp only [shapeCast_self]
  show FloatOps.minimumf _ (FloatOps.maximumf _ (FloatOps.addf (broadcastTo S8x128x1024 a1 _ (ix3 p h w))
    (FloatOps.mulf (broadcastTo S8x128x1024 (addf (addf a2 (mulf a3 a3)) (broadcast S8x1x1024 _)) _ (ix3 p h w)) (x (ix3 p h w))))) = _
  rw [rows_apply, rows_apply]
  rfl

end Cert.KernelIdeal.Body

end
-- ==== Proof.Blocks.lean ====
/-
  From the body's blocks to the whole array the kernel writes.  The grid has 8 x 8 points; point (g0, g1) works on batch
  elements 8 g0 ... 8 g0 + 7 and rows 128 g1 ... 128 g1 + 127 of the reshaped image, all 1024 columns, and on the noise
  of the same 8 batch elements.  Entry (p, h, w) of its output block is therefore entry (8 g0 + p, 128 g1 + h, w) of the
  output array, and the noise it reads is entry (8 g0 + p, 0, w) of the reshaped noise arrays: exactly what `result3`
  reads at that array index.  So each point writes back a block of `result3` of the arrays the region was entered with,
  and since every array index lies in the block of the point (i0 / 8, i1 / 128), the array ends at `result3` everywhere.
-/
import proofs.«180503_j43868795961991_1_alg».proof.Proof.Gen.KernelIdeal.Frame
import proofs.«180503_j43868795961991_1_alg».proof.Proof.Body
import Idealize.ShloMosaic.Lib.Pipeline.Value
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.NoiseClip

variable {F : FTy → Type} [FloatOps F]
variable (m : (ℓ : Loc nD τ sig) → Buf (Elt F) ℓ)

theorem zero_offsets : (![0, 0, 0] : Fin 3 → Nat) = fun _ => 0 := funext fun a => by fin_cases a <;> rfl

/-- The block indices of the five windows at a grid point: the image block moves with the output block, each noise
    block follows the output block's batch index and stays at 0 on its other axes, and the output block's indices are at
    most 7, 7 and 0. -/
theorem block_indices : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 7 ∧ win0_4.index t (2 : Fin 3) = 0 :=
  (by decide +kernel : ∀ t : Fin grid0.N, _)

/-- Every pair of block indices (q0, q1) below 8 is some grid point's output block. -/
theorem block_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- A stored block is a given function `G` of the block index as soon as `G` is `entry` of the loaded blocks entry by
    entry. -/
theorem stored_eq (a3 a2 a1 : Vec F S8x1x1024 .f32) (x : Vec F S8x128x1024 .f32) (G : S8x128x1024.Idx → F .f32)
    (hG : ∀ (p : Fin 8) (h : Fin 128) (w : Fin 1024),
      G (ix3 p h w) = entry (a1 (ix3 p 0 w)) (a2 (ix3 p 0 w)) (a3 (ix3 p 0 w)) (x (ix3 p h w))) :
    k0_pay1 a3 a2 a1 x = G := by
  funext j
  obtain ⟨p, h, w, rfl⟩ : ∃ (p : Fin 8) (h : Fin 128) (w : Fin 1024), j = ix3 p h w := ⟨j 0, j 1, j 2, eq_ix3 j⟩
  rw [Body.stored_apply, hG]

/-- What grid point `t` writes back is block `t` of `result3` of the four arrays as the region finds them. -/
theorem flushed_eq (c : Dev nD) (t : Fin cfg0.N) :
    (dats m 0 c).flushed 4 t = ((cfg0.win 4).blk t).view.read (Elt F)
      (result3 (F := F) (V m c main_v0) (V m c main_v1) (V m c main_v2) (V m c main_v3)) := by
  show (cfg0.win 4).cut (grid0.coords t) ((dats m 0 c).after 4 t) = _
  rw [after0_4]
  unfold out0_4
  rw [View.canon_unit_zero zero_offsets]
  simp only [View.ld_unit_zero (S := S8x128x1024) zero_offsets, View.ld_unit_zero (S := S8x1x1024) zero_offsets]
  obtain ⟨e00, e01, e02, e10, e11, e12, e20, e21, e22, e30, e31, e32, b0, b1, e42⟩ := block_indices t
  refine stored_eq _ _ _ _ _ (fun p h w => ?_)
  -- the image block's entry (p, h, w) and the output block's lie at one array index
  have k0 : ((cfg0.win 0).blk t).view.emb (ix3 p h w) = ((cfg0.win 4).blk t).view.emb (ix3 p h w) := by
    funext a; apply Fin.ext
    match a with
    | ⟨0, _⟩ => show win0_0.index t (0 : Fin 3) * 8 + 1 * p.val = win0_4.index t (0 : Fin 3) * 8 + 1 * p.val; omega
    | ⟨1, _⟩ => show win0_0.index t (1 : Fin 3) * 128 + 1 * h.val = win0_4.index t (1 : Fin 3) * 128 + 1 * h.val; omega
    | ⟨2, _⟩ => show win0_0.index t (2 : Fin 3) * 1024 + 1 * w.val = win0_4.index t (2 : Fin 3) * 1024 + 1 * w.val; omega
  -- each noise block's entry (p, 0, w) lies at the noise index that array index reads
  have k1 : ((cfg0.win 1).blk t).view.emb (ix3 p 0 w) = colOf3 (((cfg0.win 4).blk t).view.emb (ix3 p h w)) := by
    funext a; apply Fin.ext
    match a with
    | ⟨0, _⟩ => show win0_1.index t (0 : Fin 3) * 8 + 1 * p.val = win0_4.index t (0 : Fin 3) * 8 + 1 * p.val; omega
    | ⟨1, _⟩ => show win0_1.index t (1 : Fin 3) * 1 + 1 * 0 = 0; omega
    | ⟨2, _⟩ => show win0_1.index t (2 : Fin 3) * 1024 + 1 * w.val = win0_4.index t (2 : Fin 3) * 1024 + 1 * w.val; omega
  have k2 : ((cfg0.win 2).blk t).view.emb (ix3 p 0 w) = colOf3 (((cfg0.win 4).blk t).view.emb (ix3 p h w)) := by
    funext a; apply Fin.ext
    match a with
    | ⟨0, _⟩ => show win0_2.index t (0 : Fin 3) * 8 + 1 * p.val = win0_4.index t (0 : Fin 3) * 8 + 1 * p.val; omega
    | ⟨1, _⟩ => show win0_2.index t (1 : Fin 3) * 1 + 1 * 0 = 0; omega
    | ⟨2, _⟩ => show win0_2.index t (2 : Fin 3) * 1024 + 1 * w.val = win0_4.index t (2 : Fin 3) * 1024 + 1 * w.val; omega
  have k3 : ((cfg0.win 3).blk t).view.emb (ix3 p 0 w) = colOf3 (((cfg0.win 4).blk t).view.emb (ix3 p h w)) := by
    funext a; apply Fin.ext
    match a with
    | ⟨0, _⟩ => show win0_3.index t (0 : Fin 3) * 8 + 1 * p.val = win0_4.index t (0 : Fin 3) * 8 + 1 * p.val; omega
    | ⟨1, _⟩ => show win0_3.index t (1 : Fin 3) * 1 + 1 * 0 = 0; omega
    | ⟨2, _⟩ => show win0_3.index t (2 : Fin 3) * 1024 + 1 * w.val = win0_4.index t (2 : Fin 3) * 1024 + 1 * w.val; omega
  show result3 (F := F) (V m c main_v0) (V m c main_v1) (V m c main_v2) (V m c main_v3) (((cfg0.win 4).blk t).view.emb (ix3 p h w))
    = entry (V m c main_v1 (((cfg0.win 1).blk t).view.emb (ix3 p 0 w))) (V m c main_v2 (((cfg0.win 2).blk t).view.emb (ix3 p 0 w)))
        (V m c main_v3 (((cfg0.win 3).blk t).view.emb (ix3 p 0 w))) (V m c main_v0 (((cfg0.win 0).blk t).view.emb (ix3 p h w)))
  rw [k0, k1, k2, k3]
  rfl

/-- An array index is in point `t`'s output block iff each coordinate is in the block's range on its axis. -/
theorem mem_block (t : Fin cfg0.N) (i : S64x1024x1024.Idx) :
    i ∈ ((cfg0.win 4).blk t).view.set ↔ ∀ a : Fin 3, win0_4.index t a * S8x128x1024.size a ≤ (i a).val ∧ (i a).val < win0_4.index t a * S8x128x1024.size a + S8x128x1024.size a := by
  show i ∈ ((View.whole main_v4).slice (win0_4.rect t)).set ↔ _
  rw [View.set_slice_whole, Rect.mem_set_unit]
  exact Iff.rfl

/-- Every index of the output array is in the block of the grid point (i0 / 8, i1 / 128), which writes its block back. -/
theorem covered (i : S64x1024x1024.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  obtain ⟨t, ht⟩ := block_onto ⟨(i 0).val / 8, by omega⟩ ⟨(i 1).val / 128, by omega⟩
  have q0 : win0_4.index t (0 : Fin 3) = (i 0).val / 8 := congrFun ht 0
  have q1 : win0_4.index t (1 : Fin 3) = (i 1).val / 128 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- After the last grid point the output array holds `result3` of the four arrays the region was entered with. -/
theorem array_eq (c : Dev nD) :
    (dats m 0 c).arrAt 4 cfg0.N = result3 (F := F) (V m c main_v0) (V m c main_v1) (V m c main_v2) (V m c main_v3) :=
  (dats m 0 c).arrAt_eq_of_cover 4 _ (fun t _ => flushed_eq m c t) covered

end Cert.KernelIdeal.Blocks

end
-- ==== Proof.Run.lean ====
/-
  The kernel's run, read.  Before its one region the kernel drops the unit axes: the image [64, 1, 1024, 1024] becomes
  [64, 1024, 1024] and each noise array [64, 1, 1, 1024] becomes [64, 1, 1024], entry (b, 0, h, w) going to (b, h, w) and
  (b, 0, 0, w) to (b, 0, w).  The region leaves `result3` of those four arrays in its output array, and the one line
  after the region gives the unit axis back: the result at (b, 0, h, w) is the output array at (b, h, w).  Put together, the
  result buffer ends at `result` of the four arguments, and the arguments are not written.
-/
import proofs.«180503_j43868795961991_1_alg».proof.Proof.Gen.KernelIdeal.Frame
import proofs.«180503_j43868795961991_1_alg».proof.Proof.Blocks
import Idealize.ShloMosaic.Lib.Pipeline.Value
import Idealize.ShloMosaic.Lib.StableHlo.Run
import Idealize.ShloMosaic.Lib.Tactic

noncomputable section

namespace Cert.KernelIdeal.Run

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.NoiseClip

variable {F : FTy → Type} [FloatOps F]
variable (m : (ℓ : Loc nD τ sig) → Buf (Elt F) ℓ) (ρ : Dev nD → PrngReg)

/-! ## The arrays the region is entered with -/

/-- The region finds the image with its unit axis dropped, -/
theorem image_entry (c : Dev nD) :
    (V m c main_v0 : S64x1024x1024.Idx → F .f32)
      = shapeCast S64x1024x1024 (m ((c : Thread nD τ).loc main_arg0) : S64x1x1024x1024.Idx → F .f32) shapeCasts_S64x1x1024x1024_S64x1024x1024 := by
  show StableHlo.after hostOps0 (fun b => m (c, b)) (Proc.devRef .tc main_v0) = _
  after_results
  rfl

/-- and each of the three noise arrays with one of its two unit axes dropped. -/
theorem noise1_entry (c : Dev nD) :
    (V m c main_v1 : S64x1x1024.Idx → F .f32)
      = shapeCast S64x1x1024 (m ((c : Thread nD τ).loc main_arg1) : S64x1x1x1024.Idx → F .f32) shapeCasts_S64x1x1x1024_S64x1x1024 := by
  show StableHlo.after hostOps0 (fun b => m (c, b)) (Proc.devRef .tc main_v1) = _
  after_results
  rfl

theorem noise2_entry (c : Dev nD) :
    (V m c main_v2 : S64x1x1024.Idx → F .f32)
      = shapeCast S64x1x1024 (m ((c : Thread nD τ).loc main_arg2) : S64x1x1x1024.Idx → F .f32) shapeCasts_S64x1x1x1024_S64x1x1024 := by
  show StableHlo.after hostOps0 (fun b => m (c, b)) (Proc.devRef .tc main_v2) = _
  after_results
  rfl

theorem noise3_entry (c : Dev nD) :
    (V m c main_v3 : S64x1x1024.Idx → F .f32)
      = shapeCast S64x1x1024 (m ((c : Thread nD τ).loc main_arg3) : S64x1x1x1024.Idx → F .f32) shapeCasts_S64x1x1x1024_S64x1x1024 := by
  show StableHlo.after hostOps0 (fun b => m (c, b)) (Proc.devRef .tc main_v3) = _
  after_results
  rfl

/-! ## The line after the region -/

/-- The result buffer holds the region's output array with the unit axis put back. -/
theorem tail_eq (c : Dev nD) :
    Pipeline.afterTail₀ cfgs (dats m) 0 (V0 m) [hostOps1] c main_v5
      = broadcastInDim S64x1x1024x1024 ![0, 2, 3] bcast_S64x1024x1024_S64x1x1024x1024_0_2_3
          (result3 (F := F) (V m c main_v0) (V m c main_v1) (V m c main_v2) (V m c main_v3)) := by
  unfold Pipeline.afterTail₀
  show StableHlo.after hostOps1 _ (Proc.devRef .tc main_v5) = _
  after_results
  exact congrArg (broadcastInDim S64x1x1024x1024 ![0, 2, 3] bcast_S64x1024x1024_S64x1x1024x1024_0_2_3)
    ((Pipeline.withArrays_arr spec0 launch0.win.arr_inj c (V0 m c) (fun w => (dats m 0 c).arrAt w cfg0.N) 4).trans
      (Blocks.array_eq m c))

/-! ## Dropping the unit axes and putting one back, index by index -/

/-- The reshaped image at (b, h, w) is the image at (b, 0, h, w): both sit at position (b * 1024 + h) * 1024 + w. -/
theorem image_drop (x : S64x1x1024x1024.Idx → F .f32) (hc : S64x1x1024x1024.ShapeCasts S64x1024x1024)
    (b : Fin 64) (h : Fin 1024) (w : Fin 1024) :
    shapeCast S64x1024x1024 x hc (ix3 b h w) = x (ix4 b 0 h w) :=
  shapeCast_apply x hc (ix3 b h w) (ix4 b 0 h w) (by
    rw [Shape.rowMajor_val_four, Shape.rowMajor_val_three]
    show ((b.val * 1 + 0) * 1024 + h.val) * 1024 + w.val = (b.val * 1024 + h.val) * 1024 + w.val
    omega)

/-- A reshaped noise array at (b, 0, w) is the noise array at (b, 0, 0, w): both sit at position b * 1024 + w. -/
theorem noise_drop (a : S64x1x1x1024.Idx → F .f32) (hc : S64x1x1x1024.ShapeCasts S64x1x1024) (b : Fin 64) (w : Fin 1024) :
    shapeCast S64x1x1024 a hc (ix3 b 0 w) = a (ix4 b 0 0 w) :=
  shapeCast_apply a hc (ix3 b 0 w) (ix4 b 0 0 w) (by
    rw [Shape.rowMajor_val_four, Shape.rowMajor_val_three]
    show ((b.val * 1 + 0) * 1 + 0) * 1024 + w.val = (b.val * 1 + 0) * 1024 + w.val
    omega)

/-- `result3` of the reshaped arguments, with the unit axis put back, is `result` of the arguments. -/
theorem unit_axis_back (x : S64x1x1024x1024.Idx → F .f32) (a1 a2 a3 : S64x1x1x1024.Idx → F .f32) :
    broadcastInDim S64x1x1024x1024 ![0, 2, 3] bcast_S64x1024x1024_S64x1x1024x1024_0_2_3
        (result3 (F := F) (shapeCast S64x1024x1024 x shapeCasts_S64x1x1024x1024_S64x1024x1024)
          (shapeCast S64x1x1024 a1 shapeCasts_S64x1x1x1024_S64x1x1024)
          (shapeCast S64x1x1024 a2 shapeCasts_S64x1x1x1024_S64x1x1024)
          (shapeCast S64x1x1024 a3 shapeCasts_S64x1x1x1024_S64x1x1024))
      = result (F := F) x a1 a2 a3 := by
  funext i
  obtain ⟨b, u, h, w, rfl⟩ : ∃ (b : Fin 64) (u : Fin 1) (h : Fin 1024) (w : Fin 1024), i = ix4 b u h w :=
    ⟨i 0, i 1, i 2, i 3, eq_ix4 i⟩
  obtain rfl : u = 0 := Subsingleton.elim _ _
  refine (broadcastInDim_apply _ bcast_S64x1024x1024_S64x1x1024x1024_0_2_3 _ (ix4 b 0 h w) (ix3 b h w) (fun a => match a with
    | ⟨0, _⟩ => by show b.val = if (64 : Nat) = 1 then 0 else b.val; rw [if_neg (by decide)]
    | ⟨1, _⟩ => by show h.val = if (1024 : Nat) = 1 then 0 else h.val; rw [if_neg (by decide)]
    | ⟨2, _⟩ => by show w.val = if (1024 : Nat) = 1 then 0 else w.val; rw [if_neg (by decide)])).trans ?_
  show entry (shapeCast S64x1x1024 a1 _ (ix3 b 0 w)) (shapeCast S64x1x1024 a2 _ (ix3 b 0 w)) (shapeCast S64x1x1024 a3 _ (ix3 b 0 w))
      (shapeCast S64x1024x1024 x _ (ix3 b h w))
    = entry (a1 (ix4 b 0 0 w)) (a2 (ix4 b 0 0 w)) (a3 (ix4 b 0 0 w)) (x (ix4 b 0 h w))
  rw [image_drop, noise_drop, noise_drop, noise_drop]

/-- So the line after the region leaves `result` of the four arguments in the result buffer. -/
theorem result_eq (c : Dev nD) :
    Pipeline.afterTail₀ cfgs (dats m) 0 (V0 m) [hostOps1] c main_v5
      = result (F := F) (m ((c : Thread nD τ).loc main_arg0)) (m ((c : Thread nD τ).loc main_arg1))
          (m ((c : Thread nD τ).loc main_arg2)) (m ((c : Thread nD τ).loc main_arg3)) := by
  rw [tail_eq, image_entry, noise1_entry, noise2_entry, noise3_entry]
  exact unit_axis_back _ _ _ _

/-! ## The run -/

/-- Every weakly fair execution of the kernel's program terminates without a fault, with the result buffer at `result` of
    the four arguments and the arguments as they were. -/
theorem run : θ_run defs (onTc (τ := τ) (main (F := F))) ⟨m, fun _ => 0, ρ⟩ fun r => ∀ c : Dev nD,
      r.2.mem ((c.tc : Thread nD τ).loc main_v5)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.lean ====
/-
  The certificate of the column-noise kernel against its reference.

  Both programs compute, for an image `x` of shape [64, 1, 1024, 1024] and noise arrays `a1 a2 a3` of shape
  [64, 1, 1, 1024], the array whose entry (b, 0, h, w) is
      min 1 (max 0 (a1[b,0,0,w] + ((a2[b,0,0,w] + a3[b,0,0,w] * a3[b,0,0,w]) + 1) * x[b,0,h,w])),
  and they apply the same operations in the same order with the same two constants 0 and 1.  The reference does it on
  whole arrays, repeating the noise along the rows; the kernel drops the unit axes, walks the image in blocks of 8 batch
  elements by 128 rows, repeats each block's noise along its 128 rows, and puts the unit axis back at the end.  No law
  of arithmetic is needed to join the two, only the bookkeeping of which entry of which array each side reads, so the
  precondition is never opened.

  `Spec` states the function; `Reference` shows the reference's last stage is it; `Body` reads the kernel body's stored
  value at a block entry, `Blocks` turns the blocks the grid points write back into the whole output array, and `Run`
  carries that through the reshapes before the region and the broadcast after it.  Here the five claims are assembled.
  The idealized kernel is the kernel's own text read over the extended reals (no operation was rewritten), so the
  preservation claim is empty.
-/
import proofs.«180503_j43868795961991_1_alg».proof.Defs
import proofs.«180503_j43868795961991_1_alg».proof.Proof.Gen.Kernel
import proofs.«180503_j43868795961991_1_alg».proof.Proof.Gen.Kernel.Frame
import proofs.«180503_j43868795961991_1_alg».proof.Proof.Gen.KernelIdeal
import proofs.«180503_j43868795961991_1_alg».proof.Proof.Gen.KernelIdeal.Frame
import proofs.«180503_j43868795961991_1_alg».proof.Proof.Gen.ReferenceIdeal
import proofs.«180503_j43868795961991_1_alg».proof.Proof.Gen.ReferenceIdeal.Run
import proofs.«180503_j43868795961991_1_alg».proof.Proof.Gen.ReferenceIdeal.Read
import proofs.«180503_j43868795961991_1_alg».proof.Proof.Gen.Pre_finite_inputs
import proofs.«180503_j43868795961991_1_alg».proof.Proof.Reference
import proofs.«180503_j43868795961991_1_alg».proof.Proof.Run
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the four arguments, the kernel's result buffer ends at `result` of its arguments and the
    reference's at `result` of its own, which are the same arrays. -/
theorem algebraic : Cert.algebraic_KernelIdeal_ReferenceIdeal := by
  intro m ρ m' ρ' _ hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.ReferenceIdeal.RefValue.stage_eq_result _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
